-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v15 : IVec S2x1600000 1) (main_c_5 : IVec S_ 1) : IVec S_ 1 :=
  let main_v16 : IVec S_ 1 := (fun x v => Host.reduce IntOp.andi x v reducesTo_S2x1600000_S_d0_1 h_S_) main_v15 main_c_5
  let main_v17 : IVec S_ 1 := andi main_v13 main_v16
  let main_c_6 : IVec S_ 32 := constantI S_ 32 100000#32
  let main_v18 : IVec S2x1600000 32 := broadcastInDim S2x1600000 ![] bcast_S_S2x1600000 main_c_6
  let main_v19 : IVec S2x1600000 1 := cmpi .slt main_arg1 main_v18
  let main_c_7 : IVec S_ 1 := constantI S_ 1 1#1
  let main_v20 : IVec S_ 1 := (fun x v => Host.reduce IntOp.andi x v reducesTo_S2x1600000_S_d0_1 h_S_) main_v19 main_c_7
  let main_v21 : IVec S_ 1 := andi main_v17 main_v20
  main_v21

def fn {F : FTy → Type} [FloatOps F] (main_arg0 : FVec F S100000x64 .f32) (main_arg1 : IVec S2x1600000 32) (main_arg2 : FVec F S2x64 .f32) (main_arg3 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg1 main_v14
  let main_c_5 : IVec S_ 1 := constantI S_ 1 1#1
  fn_part1 (F := F) main_arg1 main_v13 main_v15 main_c_5
-- ==== Kernel.lean ====
abbrev S100000x64 : Shape := ⟨2, ![100000, 64]⟩
abbrev S2x1600000 : Shape := ⟨2, ![2, 1600000]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x2 : Shape := ⟨2, ![100000, 2]⟩
abbrev S5000x64 : Shape := ⟨2, ![5000, 64]⟩
abbrev S5000x2 : Shape := ⟨2, ![5000, 2]⟩
abbrev S64x2 : Shape := ⟨2, ![64, 2]⟩
abbrev S1x2 : Shape := ⟨2, ![1, 2]⟩
abbrev S5000 : Shape := ⟨1, ![5000]⟩
abbrev S5000x1 : Shape := ⟨2, ![5000, 1]⟩

abbrev nBuf : Space → Nat
  | .hbm => 93
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x64, .f32⟩
  | .hbm, ⟨3, _⟩ => ⟨S2, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1700000, .i32⟩
  | .hbm, ⟨15, _⟩ => ⟨S1700000, .i32⟩
  | .hbm, ⟨16, _⟩ => ⟨S_, .i32⟩
  | .hbm, ⟨17, _⟩ => ⟨S1700000, .i32⟩
  | .hbm, ⟨18, _⟩ => ⟨S1700000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S_, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S2x64, .f32⟩
  | .local _ .vmem, ⟨3, _⟩ => ⟨S2, .f32⟩
  | .local _ .vmem, ⟨4, _⟩ => ⟨S5000x2, .f32⟩
  | .local _ .vmem, ⟨5, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_v16 : Ref sig .tc := ⟨.hbm, 40, rfl⟩
abbrev main_c_6 : Ref sig .tc := ⟨.hbm, 41, rfl⟩
abbrev main_v17 : Ref sig .tc := ⟨.hbm, 42, rfl⟩
abbrev main_v18 : Ref sig .tc := ⟨.hbm, 43, rfl⟩
abbrev main_c_7 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_8 : Ref sig .tc := ⟨.hbm, 50, rfl⟩
abbrev main_v24 : Ref sig .tc := ⟨.hbm, 51, rfl⟩
abbrev main_v25 : Ref sig .tc := ⟨.hbm, 52, rfl⟩
abbrev main_c_9 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_10 : Ref sig .tc := ⟨.hbm, 61, rfl⟩
abbrev main_v33 : Ref sig .tc := ⟨.hbm, 62, rfl⟩
abbrev main_v34 : Ref sig .tc := ⟨.hbm, 63, rfl⟩
abbrev main_c_11 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_13 : Ref sig .tc := ⟨.hbm, 77, rfl⟩
abbrev main_v46 : Ref sig .tc := ⟨.hbm, 78, rfl⟩
abbrev main_v47 : Ref sig .tc := ⟨.hbm, 79, rfl⟩
abbrev main_c_14 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x2.size a ≤ S100000x2.size a
  hwx0_3 : ∀ i : grid0.Coords, EltTy.bits .f32 = 32 ∨ (Rect.block (s := S100000x2) S5000x2.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v57) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S5000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x64 : Shape := ⟨2, ![2, 64]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x2 : Shape := ⟨2, ![64, 2]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x64, .f32⟩
  | .hbm, ⟨3, _⟩ => ⟨S2, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S64x2, .f32⟩
  | .hbm, ⟨77, _⟩ => ⟨S100000x2, .f32⟩
  | .hbm, ⟨78, _⟩ => ⟨S1x2, .f32⟩
  | .hbm, ⟨79, _⟩ => ⟨S100000x2, .f32⟩
  | .hbm, ⟨80, _⟩ => ⟨S100000x2, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x2, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x2, .f32⟩
  | .hbm, ⟨95, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Finite.lean ====
/-
  Extended reals that are real numbers, array by array.

  An array over the extended reals is "real" when every entry is the image of a real number (neither +∞ nor −∞).
  Realness is kept by every operation the graph propagation is made of: reading an array through an index map
  (a gather, a broadcast), an entrywise product, an entrywise choice between two real arrays, and a scatter-add
  (each entry is a real plus a finite sum of reals). The reciprocal square root of a real array is real wherever
  the array is positive, which is exactly where the propagation's degree normalisation selects it.

  Also here: the maximum over two lanes as a binary maximum, and the rearrangement
  a − (m + l) = (a − m) − l, valid on the extended reals as soon as m is real.
-/
import Idealize.ShloMosaic.PureOps.Ideal
import Idealize.ShloMosaic.PureOps.Ideal.Laws
import Idealize.ShloMosaic.PureOps.IdealRules

noncomputable section

namespace Cert.Spec

open Idealize.ShloMosaic

/-- Every entry of the array is a real number. -/
def IsReal {S : Shape} (v : S.Idx → EReal) : Prop := ∀ i, ∃ r : ℝ, v i = (r : EReal)

/-- A finite sum of real numbers, taken in the extended reals, is a real number. -/
theorem exists_real_sum {ι : Type} (s : Finset ι) (g : ι → EReal) (h : ∀ j, ∃ r : ℝ, g j = (r : EReal)) :
    ∃ r : ℝ, ∑ j ∈ s, g j = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

variable {s t si su : Shape} {w : Nat} {φ : FTy}

/-- Reading a real array through a gather's index map gives a real array. -/
theorem IsReal.gather (d : GatherDims s si t) {x : FVec Ideal s φ} (hx : IsReal x) (idx : IVec si w) :
    IsReal (Host.gather d x idx) := fun _ => hx _

/-- Broadcasting a real array gives a real array. -/
theorem IsReal.bcast (dims : Fin s.rank → Fin t.rank) (h : s.BroadcastsInDim t dims) {x : FVec Ideal s φ}
    (hx : IsReal x) : IsReal (broadcastInDim t dims h x) := fun _ => hx _

/-- The entrywise product of two real arrays is real. -/
theorem IsReal.mulf {x y : FVec Ideal s φ} (hx : IsReal x) (hy : IsReal y) : IsReal (mulf x y) := fun i => by
  obtain ⟨a, ha⟩ := hx i
  obtain ⟨b, hb⟩ := hy i
  exact ⟨a * b, by show FloatOps.mulf (x i) (y i) = _; rw [Ideal.mulf_def, ha, hb, EReal.coe_mul]⟩

/-- An entrywise choice between two real arrays is real. -/
theorem IsReal.select (c : IVec s 1) {x y : FVec Ideal s φ} (hx : IsReal x) (hy : IsReal y) :
    IsReal (select c x y) := fun i => by
  show ∃ r : ℝ, Scalar.select (c i) (x i) (y i) = _
  unfold Scalar.select
  split
  · exact hx i
  · exact hy i

/-- A scatter-add of real updates into a real array is real: each entry is its old value plus a finite sum of updates. -/
theorem IsReal.scatterAdd (d : ScatterDims s si su) {x : FVec Ideal s φ} {u : FVec Ideal su φ} (hx : IsReal x)
    (hu : IsReal u) (idx : IVec si w) : IsReal (Host.scatterAdd d x idx u) := fun i => by
  obtain ⟨a, ha⟩ := hx i
  obtain ⟨r, hr⟩ := exists_real_sum (Finset.univ.filter fun j => d.resultIdx? j idx = some i) u hu
  refine ⟨a + r, ?_⟩
  show Ideal.hostScatterAdd d x idx u i = _
  unfold Ideal.hostScatterAdd
  rw [ha, hr, EReal.coe_add]

/-- The zero splat is real. -/
theorem isReal_zero (S : Shape) : IsReal (constant (F := Ideal) S .f32 0x00000000#32) := fun _ =>
  ⟨0, by show Ideal.ofBits .f32 0x00000000#32 = _; rw [Ideal.ofBits_zero_f32]; rfl⟩

/-- The splat of one is real. -/
theorem isReal_one (S : Shape) : IsReal (constant (F := Ideal) S .f32 0x3F800000#32) := fun _ =>
  ⟨1, by show Ideal.ofBits .f32 0x3F800000#32 = _; exact (IdealRules.sign_bit.ideal_onePat .f32).trans EReal.coe_one.symm⟩

/-- Where a real array is positive take its reciprocal square root, elsewhere a real array: the result is real.
    (The reciprocal square root of a positive real is a real; at zero it would be +∞, but there the other branch is taken.) -/
theorem IsReal.rsqrt_where_pos {d z z' : FVec Ideal s φ} (hd : IsReal d) (hz : IsReal z) (hz' : ∀ i, z' i = 0) :
    IsReal (Idealize.ShloMosaic.select (cmpf .ogt d z') (Host.rsqrt d) z) := fun i => by
  show ∃ r : ℝ, Scalar.select (FloatOps.cmpf .ogt (d i) (z' i)) (FloatOps.hostUnary .rsqrt (d i)) (z i) = _
  obtain ⟨a, ha⟩ := hd i
  rw [Ideal.cmpf_def, Ideal.hostUnary_rsqrt_def, hz' i, ha]
  unfold Scalar.select Ideal.cmp
  by_cases hpos : (0 : EReal) < (a : EReal)
  · have ha0 : 0 < a := by exact_mod_cast hpos
    rw [if_pos (by simp [hpos])]
    exact ⟨(Real.sqrt a)⁻¹, by rw [Ideal.rsqrt_coe, if_neg (not_lt.mpr ha0.le), if_neg ha0.ne']⟩
  · rw [if_neg (by simp [hpos])]
    exact hz i

/-- The maximum over two lanes, folded from a starting value. -/
theorem fold_max_two (b : EReal) (f : Fin 2 → EReal) :
    (Finset.univ : Finset (Fin 2)).fold max b f = max (f 0) (max (f 1) b) := by
  have h : (Finset.univ : Finset (Fin 2)) = {0, 1} := by decide
  rw [h, Finset.fold_insert (by decide), Finset.fold_singleton]

/-- The same over any lane type of two lanes (a reduced axis whose extent is 2 only after unfolding its shape). -/
theorem fold_max_two' {n : ℕ} (hn : n = 2) (b : EReal) (f : Fin n → EReal) :
    (Finset.univ : Finset (Fin n)).fold max b f = max (f ⟨0, by omega⟩) (max (f ⟨1, by omega⟩) b) := by
  subst hn; exact fold_max_two b f

/-- Subtracting a sum whose first term is real: a − (m + l) = (a − m) − l. (False at m = +∞, l = −∞.) -/
theorem sub_real_add (a l : EReal) (m : ℝ) : a - ((m : EReal) + l) = (a - (m : EReal)) - l := by
  rw [sub_eq_add_neg, sub_eq_add_neg, sub_eq_add_neg,
    EReal.neg_add (Or.inl (EReal.coe_ne_bot m)) (Or.inl (EReal.coe_ne_top m)), sub_eq_add_neg, add_assoc]

end Cert.Spec

end
-- ==== Proof.Propagate.lean ====
/-
  Two hops of degree-normalised graph propagation, as one function of the two index vectors and the features.

  There are 100000 nodes and 1700000 directed pairs (row p, column p): the 1600000 given edges followed by one
  self-loop per node. With deg the number of pairs whose column is a node (a scatter-add of ones), and
  dinv = deg^(−1/2) where deg is positive and 0 elsewhere, one hop sends the features x to

      (hop x)[v, :] = Σ over pairs p with column p = v of dinv[row p] · dinv[column p] · x[row p, :]

  (a gather of rows, an entrywise scaling, a scatter-add by column). Indices are read the way array indexing
  reads them: a gather index that is negative is shifted up by the node count first ("wrapped"); the scatter uses
  the column as it stands. Both programs of this certificate compute exactly this term, the reference at the
  index vectors as given and the kernel at the index vectors clipped to the node range.

  The term is generic in the float instance and is spelt with the same host operations, shapes and dimension
  records the printed programs use, so that each program's composed term is this one by unfolding.
-/
import Idealize.ShloMosaic.PureOps

noncomputable section

namespace Cert.Spec

open Idealize.ShloMosaic

abbrev Nodes : Shape := ⟨1, ![100000]⟩
abbrev Pairs : Shape := ⟨1, ![1700000]⟩
abbrev PairsCol : Shape := ⟨2, ![1700000, 1]⟩
abbrev PairsFeat : Shape := ⟨2, ![1700000, 64]⟩
abbrev NodesFeat : Shape := ⟨2, ![100000, 64]⟩
abbrev Scalar0 : Shape := ⟨0, ![]⟩

theorem bc_nodes : Scalar0.BroadcastsInDim Nodes (![] : Fin 0 → Fin Nodes.rank) := by decide
theorem bc_pairs : Scalar0.BroadcastsInDim Pairs (![] : Fin 0 → Fin Pairs.rank) := by decide
theorem bc_col : Pairs.BroadcastsInDim PairsCol (![0] : Fin 1 → Fin PairsCol.rank) := by decide
theorem bc_feat : PairsCol.BroadcastsInDim PairsFeat (![0, 1] : Fin 2 → Fin PairsFeat.rank) := by decide
theorem bc_nodesFeat : Scalar0.BroadcastsInDim NodesFeat (![] : Fin 0 → Fin NodesFeat.rank) := by decide

/-- Scatter of one number per pair into the nodes, by the pair's index. -/
def scNodes : ScatterDims Nodes PairsCol Pairs where
  updateWindowDims := []
  insertedWindowDims := [0]
  scatterDimsToOperandDims := [0]
  indexVectorDim := 1
  wf := by decide
/-- Gather of one number per pair out of the nodes. -/
def gaNodes : GatherDims Nodes PairsCol Pairs where
  offsetDims := []
  collapsedSliceDims := [0]
  operandBatchingDims := []
  startIndicesBatchingDims := []
  startIndexMap := [0]
  indexVectorDim := 1
  sliceSizes := ![1]
  wf := by decide
/-- Gather of one feature row per pair. -/
def gaRows : GatherDims NodesFeat PairsCol PairsFeat where
  offsetDims := [1]
  collapsedSliceDims := [0]
  operandBatchingDims := []
  startIndicesBatchingDims := []
  startIndexMap := [0]
  indexVectorDim := 1
  sliceSizes := ![1, 64]
  wf := by decide
/-- Scatter of one feature row per pair into the node rows. -/
def scRows : ScatterDims NodesFeat PairsCol PairsFeat where
  updateWindowDims := [1]
  insertedWindowDims := [0]
  scatterDimsToOperandDims := [0]
  indexVectorDim := 1
  wf := by decide

variable {F : FTy → Type} [FloatOps F]

/-- The index vector as a one-column table, the form a gather or scatter takes it in. -/
abbrev asCol (i : IVec Pairs 32) : IVec PairsCol 32 := broadcastInDim PairsCol ![0] bc_col i

/-- A gather index as array indexing reads it: a negative index is shifted up by the node count. -/
abbrev wrapped (i : IVec Pairs 32) : IVec Pairs 32 :=
  select (cmpi .slt i (broadcastInDim Pairs ![] bc_pairs (constantI Scalar0 32 0#32)))
    (addi i (broadcastInDim Pairs ![] bc_pairs (constantI Scalar0 32 100000#32))) i

/-- The in-degree with self-loops: ones scatter-added by column. -/
def degree (col : IVec Pairs 32) : FVec F Nodes .f32 :=
  Host.scatterAdd scNodes (broadcastInDim Nodes ![] bc_nodes (constant Scalar0 .f32 0x00000000#32)) (asCol col)
    (broadcastInDim Pairs ![] bc_pairs (constant Scalar0 .f32 0x3F800000#32))

/-- deg^(−1/2) where the degree is positive, zero elsewhere. -/
def invSqrtDegree (col : IVec Pairs 32) : FVec F Nodes .f32 :=
  select (cmpf .ogt (degree (F := F) col) (broadcastInDim Nodes ![] bc_nodes (constant Scalar0 .f32 0x00000000#32)))
    (Host.rsqrt (degree (F := F) col))
    (broadcastInDim Nodes ![] bc_nodes (id (constant Scalar0 .f32 0x00000000#32)))

/-- The weight of a pair: dinv at its row times dinv at its column. -/
def pairWeight (row col : IVec Pairs 32) : FVec F Pairs .f32 :=
  mulf (Host.gather gaNodes (invSqrtDegree (F := F) col) (asCol (wrapped row)))
    (Host.gather gaNodes (invSqrtDegree (F := F) col) (asCol (wrapped col)))

/-- One hop: gather the rows, scale each by its pair's weight, scatter-add by column. -/
def hop (row col : IVec Pairs 32) (x : FVec F NodesFeat .f32) : FVec F NodesFeat .f32 :=
  Host.scatterAdd scRows (broadcastInDim NodesFeat ![] bc_nodesFeat (constant Scalar0 .f32 0x00000000#32)) (asCol col)
    (mulf (broadcastInDim PairsFeat ![0, 1] bc_feat (broadcastInDim PairsCol ![0] bc_col (pairWeight (F := F) row col)))
      (Host.gather gaRows x (asCol (wrapped row))))

/-- Two hops. -/
def propagate (row col : IVec Pairs 32) (x : FVec F NodesFeat .f32) : FVec F NodesFeat .f32 :=
  hop row col (hop row col x)

end Cert.Spec

end
-- ==== Proof.PropagateReal.lean ====
/-
  Propagation keeps real features real.

  The degree is a scatter-add of ones into zeros, so it is real; its reciprocal square root is taken only where it
  is positive, so the normalisation is real; a pair's weight is a product of two of its entries; and one hop is a
  scatter-add, into zeros, of weights times gathered feature rows. Hence whatever the two index vectors are,
  real features stay real through both hops.
-/
import proofs.«415030_j31404800868418_3_alg».proof.Proof.Finite
import proofs.«415030_j31404800868418_3_alg».proof.Proof.Propagate

noncomputable section

namespace Cert.Spec

open Idealize.ShloMosaic

theorem isReal_degree (col : IVec Pairs 32) : IsReal (degree (F := Ideal) col) :=
  IsReal.scatterAdd (φ := .f32) scNodes (IsReal.bcast (φ := .f32) _ bc_nodes (isReal_zero _)) (IsReal.bcast (φ := .f32) _ bc_pairs (isReal_one _)) _

theorem isReal_invSqrtDegree (col : IVec Pairs 32) : IsReal (invSqrtDegree (F := Ideal) col) :=
  IsReal.rsqrt_where_pos (isReal_degree col) (IsReal.bcast (φ := .f32) _ bc_nodes (isReal_zero Scalar0))
    (fun _ => Ideal.ofBits_zero_f32)

theorem isReal_pairWeight (row col : IVec Pairs 32) : IsReal (pairWeight (F := Ideal) row col) :=
  IsReal.mulf (φ := .f32) (IsReal.gather (φ := .f32) gaNodes (isReal_invSqrtDegree col) _) (IsReal.gather (φ := .f32) gaNodes (isReal_invSqrtDegree col) _)

theorem isReal_hop (row col : IVec Pairs 32) {x : FVec Ideal NodesFeat .f32} (hx : IsReal x) :
    IsReal (hop (F := Ideal) row col x) :=
  IsReal.scatterAdd (φ := .f32) scRows (IsReal.bcast (φ := .f32) _ bc_nodesFeat (isReal_zero _))
    (IsReal.mulf (φ := .f32) (IsReal.bcast (φ := .f32) _ bc_feat (IsReal.bcast (φ := .f32) _ bc_col (isReal_pairWeight row col))) (IsReal.gather (φ := .f32) gaRows hx _)) _

/-- Real features stay real through two hops, at any index vectors. -/
theorem isReal_propagate (row col : IVec Pairs 32) {x : FVec Ideal NodesFeat .f32} (hx : IsReal x) :
    IsReal (propagate (F := Ideal) row col x) :=
  isReal_hop row col (isReal_hop row col hx)

end Cert.Spec

end
-- ==== Proof.Endpoints.lean ====
/-
  The two index vectors of the propagation, and the clip that does nothing on them.

  The pair list is the 1600000 given edges followed by one self-loop per node: its rows are row 0 of the edge
  table followed by 0, 1, …, 99999, its columns are row 1 of the edge table followed by the same. If every entry
  of the edge table lies in the node range [0, 100000), so does every entry of both vectors (the self-loop part
  is in range by itself), and then clamping a vector into [0, 99999] — a signed maximum with 0 followed by a
  signed minimum with 99999 — returns the vector unchanged.
-/
import Idealize.ShloMosaic.PureOps
import Idealize.ShloMosaic.Lib.Affine
import Idealize.ShloMosaic.Lib.Pipeline.Value
import Idealize.ShloMosaic.Lib.StableHlo.Predicate
import Idealize.ShloMosaic.Lib.ValueIdx
import proofs.«415030_j31404800868418_3_alg».proof.Proof.Propagate

noncomputable section

namespace Cert.Spec

open Idealize.ShloMosaic

abbrev Edges : Shape := ⟨2, ![2, 1600000]⟩
abbrev EdgeRow : Shape := ⟨2, ![1, 1600000]⟩
abbrev EdgeVec : Shape := ⟨1, ![1600000]⟩

theorem sl_first : Edges.Slices ![0, 0] EdgeRow := by decide
theorem sl_second : Edges.Slices ![1, 0] EdgeRow := by decide
theorem sc_edge : EdgeRow.ShapeCasts EdgeVec := by decide
theorem cat_pairs : Shape.Concatenates [EdgeVec, Nodes] Pairs 0 := by decide

/-- The pairs' rows: row 0 of the edge table, then the self-loops 0 … 99999. -/
def rowsOf (e : IVec Edges 32) : IVec Pairs 32 :=
  concatenate Pairs 0 [⟨EdgeVec, (shapeCast _ (extractStridedSlice EdgeRow ![0, 0] e sl_first) sc_edge)⟩,
    ⟨Nodes, (iotaInDim Nodes 32 0)⟩] cat_pairs

/-- The pairs' columns: row 1 of the edge table, then the self-loops 0 … 99999. -/
def colsOf (e : IVec Edges 32) : IVec Pairs 32 :=
  concatenate Pairs 0 [⟨EdgeVec, (shapeCast _ (extractStridedSlice EdgeRow ![1, 0] e sl_second) sc_edge)⟩,
    ⟨Nodes, (iotaInDim Nodes 32 0)⟩] cat_pairs

/-- Clamping an index vector into the node range: signed maximum with 0, then signed minimum with 99999. -/
def clipIdx (i : IVec Pairs 32) : IVec Pairs 32 :=
  minsi (broadcastInDim Pairs ![] bc_pairs (id (constantI Scalar0 32 99999#32)))
    (maxsi (broadcastInDim Pairs ![] bc_pairs (id (constantI Scalar0 32 0#32))) i)

/-- A 32-bit word that, read signed, is a node number. -/
def InRange (w : BitVec 32) : Prop := (0 : Int) ≤ w.toInt ∧ w.toInt < 100000

/-- Clamping a node number into [0, 99999] returns it. -/
theorem clip_word (w : BitVec 32) (hw : InRange w) : IntOp.minsi 99999#32 (IntOp.maxsi 0#32 w) = w := by
  obtain ⟨h0, h1⟩ := hw
  have e0 : (0#32 : BitVec 32).toInt = 0 := by decide
  have e1 : (99999#32 : BitVec 32).toInt = 99999 := by decide
  have hmax : IntOp.maxsi 0#32 w = w := by
    unfold IntOp.maxsi
    rw [if_neg]
    rw [BitVec.slt_iff_toInt_lt, e0]; omega
  rw [hmax]
  unfold IntOp.minsi
  rw [if_neg]
  rw [BitVec.slt_iff_toInt_lt, e1]; omega

/-- Every entry of a slice-and-reshape of the edge table is an entry of the edge table. -/
theorem inRange_edgeVec (off : Fin Edges.rank → Nat) (hs : Edges.Slices off EdgeRow) (e : IVec Edges 32)
    (he : ∀ k, InRange (e k)) (i : EdgeVec.Idx) :
    InRange ((shapeCast EdgeVec (extractStridedSlice EdgeRow off e hs) sc_edge) i) := he _

/-- A self-loop's node number is in range. -/
theorem inRange_iota (i : Nodes.Idx) : InRange (iotaInDim Nodes 32 0 i) := by
  show InRange (BitVec.ofNat 32 (i 0).val)
  have hlt : (i 0).val < 100000 := (i 0).isLt
  have := StableHlo.Predicate.toInt_ofNat_small (i 0).val (by omega)
  exact ⟨by omega, by omega⟩

/-- An index vector made of a slice of the edge table followed by the self-loops is in range when the table is. -/
theorem inRange_concat (off : Fin Edges.rank → Nat) (hs : Edges.Slices off EdgeRow) (e : IVec Edges 32)
    (he : ∀ k, InRange (e k)) (p : Pairs.Idx) :
    InRange (concatenate Pairs 0 [⟨EdgeVec, (shapeCast _ (extractStridedSlice EdgeRow off e hs) sc_edge)⟩,
      ⟨Nodes, (iotaInDim Nodes 32 0)⟩] cat_pairs p) := by
  by_cases hp : (p 0).val < 1600000
  · rw [concatenate_pair_apply_left (0 : Fin Pairs.rank) _ _ cat_pairs p rfl
      (ValueIdx.ix1 (⟨(p 0).val, hp⟩ : Fin 1600000)) (fun b => match b with | ⟨0, _⟩ => rfl)]
    exact inRange_edgeVec off hs e he _
  · have hlt : (p 0).val < 1700000 := (p 0).isLt
    have hsub : (p 0).val - 1600000 < 100000 := by omega
    rw [concatenate_pair_apply_right (0 : Fin Pairs.rank) _ _ cat_pairs p rfl rfl
      (ValueIdx.ix1 (⟨(p 0).val - 1600000, hsub⟩ : Fin 100000))
      (fun b hb => absurd (Subsingleton.elim _ _) hb)
      (by show (p 0).val - 1600000 + 1600000 = (p 0).val; omega)]
    exact inRange_iota _

theorem rowsOf_inRange (e : IVec Edges 32) (he : ∀ k, InRange (e k)) (p : Pairs.Idx) : InRange (rowsOf e p) :=
  inRange_concat _ sl_first e he p
theorem colsOf_inRange (e : IVec Edges 32) (he : ∀ k, InRange (e k)) (p : Pairs.Idx) : InRange (colsOf e p) :=
  inRange_concat _ sl_second e he p

/-- Clamping an in-range index vector returns it. -/
theorem clipIdx_eq (i : IVec Pairs 32) (hi : ∀ p, InRange (i p)) : clipIdx i = i :=
  funext fun p => clip_word (i p) (hi p)

end Cert.Spec

end
-- ==== Proof.Domain.lean ====
/-
  What the precondition says, read back.

  The precondition is the conjunction of five "all entries satisfy" tests: |x| < +∞, |W| < +∞, |b| < +∞ entrywise,
  and 0 ≤ e and e < 100000 for every entry of the edge table (compared as signed words). An extended real whose
  absolute value is below +∞ is a real number, so the three float arrays are real; and every edge endpoint is a node
  number. These are exactly the two facts the equivalence needs: realness makes the two log-softmax forms agree, and
  in-range endpoints make the kernel's clamp the identity.
-/
import proofs.«415030_j31404800868418_3_alg».proof.Pre_finite_inputs
import proofs.«415030_j31404800868418_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws
import proofs.«415030_j31404800868418_3_alg».proof.Proof.Finite
import proofs.«415030_j31404800868418_3_alg».proof.Proof.Endpoints

set_option maxRecDepth 16384

noncomputable section

namespace Cert.Domain

open Idealize.ShloMosaic Cert.Pre_finite_inputs Cert.Pre_finite_inputs.Gen

instance : Subsingleton S_.Idx := ⟨fun _ _ => funext fun d => d.elim0⟩

/-- An extended real whose absolute value is below +∞ is a real number. -/
theorem real_of_abs_lt_top (v : EReal)
    (h : FloatOps.cmpf (F := Ideal) (φ := .f32) .olt (FloatOps.hostAbsf v) (FloatOps.ofBits .f32 0x7F800000#32) = 1#1) :
    ∃ r : ℝ, v = (r : EReal) := by
  have htop : Ideal.ofBits .f32 0x7F800000#32 = (⊤ : EReal) := by simp [Ideal.ofBits, Ideal.ieee]
  rw [Ideal.cmpf_def, Ideal.hostAbsf_def, Ideal.absf_def, Ideal.ofBits_def, htop] at h
  induction v using EReal.rec with
  | bot => exact absurd h (by simp [Ideal.cmp])
  | top => exact absurd h (by simp [Ideal.cmp])
  | coe r => exact ⟨r, rfl⟩

variable (x : FVec Ideal S100000x64 .f32) (e : IVec S2x1600000 32) (W : FVec Ideal S2x64 .f32) (b : FVec Ideal S2 .f32)

/-- The precondition, decoded: the three float inputs are real and every edge endpoint is a node number. -/
theorem decode (h : fn (F := Ideal) x e W b = fun _ => 1#1) :
    Cert.Spec.IsReal x ∧ Cert.Spec.IsReal W ∧ Cert.Spec.IsReal b ∧ ∀ k, Cert.Spec.InRange (e k) := by
  have h0 := congrFun h ValueIdx.ix0
  dsimp only [fn, fn_part1] at h0
  obtain ⟨h17, h20⟩ := IntOp.andi_eq_one.1 h0
  obtain ⟨h13, h16⟩ := IntOp.andi_eq_one.1 h17
  obtain ⟨h8, h12⟩ := IntOp.andi_eq_one.1 h13
  obtain ⟨h3, h7⟩ := IntOp.andi_eq_one.1 h8
  refine ⟨fun i => ?_, fun i => ?_, fun i => ?_, fun k => ⟨?_, ?_⟩⟩
  · exact real_of_abs_lt_top _ (Host.reduce_andi_all _ _ _ _ ValueIdx.ix0 h3 i)
  · exact real_of_abs_lt_top _ (Host.reduce_andi_all _ _ _ _ ValueIdx.ix0 h7 i)
  · exact real_of_abs_lt_top _ (Host.reduce_andi_all _ _ _ _ ValueIdx.ix0 h12 i)
  · have := IntOp.cmpi_sge.1 (Host.reduce_andi_all _ _ _ _ ValueIdx.ix0 h16 k)
    exact this
  · have := IntOp.cmpi_slt.1 (Host.reduce_andi_all _ _ _ _ ValueIdx.ix0 h20 k)
    exact this

end Cert.Domain

end
-- ==== Proof.KernelHost.lean ====
/-
  What the kernel's program hands to its one pallas_call.

  Before the call, the program builds the pair list (rows and columns of the edge table, each followed by the
  self-loops), clamps both index vectors into the node range, and runs the two hops of normalised propagation on the
  features. The array staged as the call's first operand is therefore the propagation of the input features at the
  CLAMPED rows and columns. This is read off the program's host operations one by one, for any float instance.
-/
import proofs.«415030_j31404800868418_3_alg».proof.Proof.Gen.KernelIdeal.Frame
import Idealize.ShloMosaic.Lib.StableHlo.Run
import proofs.«415030_j31404800868418_3_alg».proof.Proof.Propagate
import proofs.«415030_j31404800868418_3_alg».proof.Proof.Endpoints

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 8000000 in
/-- The call's first operand, as the region finds it: two hops of propagation at the clamped index vectors. -/
theorem operand_eq (c : Dev nD) :
    (V m c main_v57 : S100000x64.Idx → F .f32)
      = Cert.Spec.propagate (F := F)
          (Cert.Spec.clipIdx (Cert.Spec.rowsOf (m ((c : Thread nD τ).loc main_arg1))))
          (Cert.Spec.clipIdx (Cert.Spec.colsOf (m ((c : Thread nD τ).loc main_arg1))))
          (m ((c : Thread nD τ).loc main_arg0)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [TRef.ofBuf, TRef.toBuf, cast_eq]
  rfl

end Cert.KernelIdeal.HostSide

end
-- ==== Proof.Classify.lean ====
/-
  The classifier stage: a linear layer into two classes, then a log-softmax over the two.

  For node i and class r the logit is  a r = Σ_k P[i, k] · W[r, k] + b[r].  With m = max (a 0) (a 1) and
  S = exp (a 0 − m) + exp (a 1 − m), the kernel writes  a q − (m + log S)  and the reference writes
  (a q − m) − log S.  On the extended reals the two agree as soon as m is a real number, which it is when the
  features, the weights and the bias are real: each logit is then a finite sum of products of reals, plus a real.
-/
import Idealize.ShloMosaic.PureOps.Ideal
import Idealize.ShloMosaic.Lib.ValueIdx
import proofs.«415030_j31404800868418_3_alg».proof.Proof.Finite
import proofs.«415030_j31404800868418_3_alg».proof.Proof.Propagate

noncomputable section

namespace Cert.Spec

open Idealize.ShloMosaic Idealize.ShloMosaic.ValueIdx

abbrev Weights : Shape := ⟨2, ![2, 64]⟩
abbrev Classes : Shape := ⟨1, ![2]⟩
abbrev NodesCls : Shape := ⟨2, ![100000, 2]⟩

/-- The log-softmax of a row of two logits, in the kernel's form: a q − (m + log Σ_r exp (a r − m)), m the row maximum. -/
def lsm (a : Fin 2 → EReal) (q : Fin 2) : EReal :=
  a q - (max (a 0) (a 1) + Ideal.log (∑ r : Fin 2, Ideal.exp (a r - max (a 0) (a 1))))

/-- The reference's form, (a q − m) − log Σ_r exp (a r − m), is the kernel's when both logits are real. -/
theorem lsm_shift (a : Fin 2 → EReal) (q : Fin 2) (h : ∀ r, ∃ x : ℝ, a r = (x : EReal)) :
    (a q - max (a 0) (a 1)) - Ideal.log (∑ r : Fin 2, Ideal.exp (a r - max (a 0) (a 1))) = lsm a q := by
  obtain ⟨x0, h0⟩ := h 0
  obtain ⟨x1, h1⟩ := h 1
  have hm : max (a 0) (a 1) = ((max x0 x1 : ℝ) : EReal) := by
    rw [h0, h1]; exact (EReal.coe_strictMono.monotone.map_max).symm
  unfold lsm
  rw [hm]
  exact (sub_real_add _ _ _).symm

/-- The reference's form assembled from its parts: if d r = a r − m for both r (m the maximum of the two logits), and
    lg = log Σ_r exp (d r), then d q − lg is the log-softmax of the row at q, provided both logits are real. -/
theorem lsm_assemble (a : Fin 2 → EReal) (q : Fin 2) (d : Fin 2 → EReal) (hd : ∀ r, d r = a r - max (a 0) (a 1))
    (lg : EReal) (hlg : lg = Ideal.log (∑ r : Fin 2, Ideal.exp (d r))) (h : ∀ r, ∃ x : ℝ, a r = (x : EReal)) :
    d q - lg = lsm a q := by
  rw [hlg]
  simp only [hd]
  exact lsm_shift a q h

/-- The logit of node i and class r. -/
def logit (P : NodesFeat.Idx → EReal) (W : Weights.Idx → EReal) (b : Classes.Idx → EReal) (i : Fin 100000) (r : Fin 2) : EReal :=
  (∑ k : Fin 64, P (ix2 i k) * W (ix2 r k)) + b (ix1 r)

/-- Real features, weights and bias give real logits. -/
theorem logit_real {P : NodesFeat.Idx → EReal} {W : Weights.Idx → EReal} {b : Classes.Idx → EReal}
    (hP : IsReal P) (hW : IsReal W) (hb : IsReal b) (i : Fin 100000) (r : Fin 2) :
    ∃ x : ℝ, logit P W b i r = (x : EReal) := by
  obtain ⟨s, hs⟩ := exists_real_sum Finset.univ (fun k : Fin 64 => P (ix2 i k) * W (ix2 r k)) (fun k => by
    obtain ⟨u, hu⟩ := hP (ix2 i k)
    obtain ⟨v, hv⟩ := hW (ix2 r k)
    exact ⟨u * v, by rw [hu, hv, EReal.coe_mul]⟩)
  obtain ⟨c, hc⟩ := hb (ix1 r)
  exact ⟨s + c, by unfold logit; rw [hs, hc, EReal.coe_add]⟩

/-- The whole stage: entry (i, q) is the log-softmax of node i's two logits at class q. -/
def classify (P : NodesFeat.Idx → EReal) (W : Weights.Idx → EReal) (b : Classes.Idx → EReal) : NodesCls.Idx → EReal :=
  fun j => lsm (logit P W b (j 0)) (j 1)

end Cert.Spec

end
-- ==== Proof.KernelRow.lean ====
/-
  The kernel body at one entry of its output block.

  On a block of 5000 feature rows x, the weights w (2 × 64) and the bias c, the body forms the logits
  L[p, r] = Σ_k x[p, k] · w[r, k] + c[r] (a matrix product with the transposed weights into a zero accumulator; the
  change of float format before it is the identity on the extended reals), the row maximum m[p] = max (L[p, 0]) (L[p, 1])
  (the reduction starts from −∞, which is the bottom), the row sum S[p] = Σ_r exp (L[p, r] − m[p]), and stores
  L[p, q] − (m[p] + log S[p]). Each keepdims reshape and broadcast only renames an index, so entry (p, q) of the
  stored block is the log-softmax of row p's two logits at q.
-/
import proofs.«415030_j31404800868418_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«415030_j31404800868418_3_alg».proof.Proof.Classify

noncomputable section

namespace Cert.KernelIdeal.Row

open Cert.KernelIdeal Cert.KernelIdeal.Gen Idealize.ShloMosaic Idealize.ShloMosaic.ValueIdx

/-! ## The matrix product at an entry -/

theorem lhs_axis0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs_axis1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem rhs_axis0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhs_axis1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The product into the zero accumulator, at (p, q): the sum over the 64 features of left[p, k] · right[k, q]. -/
theorem matmul_entry (l : FVec Ideal S5000x64 .bf16) (r : FVec Ideal S64x2 .bf16) (p : Fin 5000) (q : Fin 2) :
    matmul dot_S5000x64_S64x2_S5000x2_1_0_0_1_n_n none l r (constant S5000x2 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx (ix2 p q) ((ValueIdx.contrEquiv1 dot_S5000x64_S64x2_S5000x2_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x2_S5000x2_1_0_0_1_n_n.rhsIdx (ix2 p q) ((ValueIdx.contrEquiv1 dot_S5000x64_S64x2_S5000x2_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The logits block -/

/-- The body's logits from the three loaded blocks. -/
abbrev logitsBlock (x0 : Vec Ideal S5000x64 .f32) (x1 : Vec Ideal S2x64 .f32) (x2 : Vec Ideal S2 .f32) : FVec Ideal S5000x2 .f32 :=
  addf (matmul dot_S5000x64_S64x2_S5000x2_1_0_0_1_n_n none
      (truncf .bf16 (shapeCast S5000x64 x0 shapeCasts_S5000x64_S5000x64) bitsLt_bf16_f32)
      (transpose S64x2 [1, 0] (truncf .bf16 x1 bitsLt_bf16_f32) transposes_S2x64_p1_0_S64x2)
      (constant S5000x2 .f32 0x00000000#32))
    (broadcastTo S5000x2 (shapeCast S1x2 x2 shapeCasts_S2_S1x2) broadcasts_S1x2_S5000x2)

/-- Entry (p, r) of the logits: Σ_k x[p, k] · w[r, k] + c[r]. -/
theorem logitsBlock_entry (x0 : Vec Ideal S5000x64 .f32) (x1 : Vec Ideal S2x64 .f32) (x2 : Vec Ideal S2 .f32) (p : Fin 5000) (r : Fin 2) :
    logitsBlock x0 x1 x2 (ix2 p r) = (∑ k : Fin 64, x0 (ix2 p k) * x1 (ix2 r k)) + x2 (ix1 r) := by
  show FloatOps.addf _ _ = _
  rw [Ideal.addf_def, matmul_entry, broadcastTo_1b_ab_apply, shapeCast_a_1a_apply]
  refine congrArg (· + x2 (ix1 r)) (Finset.sum_congr rfl fun k _ => ?_)
  rw [truncf_apply, shapeCast_self, transpose_ix2_apply, truncf_apply]

/-! ## Row reductions and keepdims -/

/-- The index a row reduction inserts at lane k of row p is (p, k). -/
theorem lift_row (p : Fin 5000) (k : Fin (S5000x2.size 1)) :
    reduces_S5000x2_S5000.lift (ix1 p) k = ix2 p (⟨k.val, k.isLt⟩ : Fin 2) :=
  funext fun a => Fin.ext (by match a with | ⟨0, _⟩ => rfl | ⟨1, _⟩ => rfl)

/-- The row maximum, started from −∞, is the maximum of the row's two entries. -/
theorem rowMax_entry (L : FVec Ideal S5000x2 .f32) (p : Fin 5000) :
    multiReduction .maximumf [1] S5000 L 0xFF800000#32 reduces_S5000x2_S5000 (.inl rfl) rfl (ix1 p)
      = max (L (ix2 p 0)) (L (ix2 p 1)) := by
  refine (Ideal.multiReduction_maximumf_single L 0xFF800000#32 reduces_S5000x2_S5000 (.inl rfl) rfl (ix1 p)).trans ?_
  refine (Cert.Spec.fold_max_two' (n := S5000x2.size 1) rfl _ _).trans ?_
  have hbot : FloatOps.ofBits (F := Ideal) .f32 0xFF800000#32 = (⊥ : EReal) := by
    show Ideal.ofBits .f32 0xFF800000#32 = ⊥
    simp [Ideal.ofBits, Ideal.ieee]
  rw [hbot, max_bot_right]
  simp only [Function.comp_apply, lift_row]
  rfl

/-- The row sum is the sum of the row's two entries. -/
theorem rowSum_entry (E : FVec Ideal S5000x2 .f32) (p : Fin 5000) :
    multiReduction .add [1] S5000 E 0x00000000#32 reduces_S5000x2_S5000 (.inl rfl) rfl (ix1 p)
      = ∑ k : Fin 2, E (ix2 p k) := by
  refine (Ideal.multiReduction_add_single E 0x00000000#32 reduces_S5000x2_S5000 (.inl rfl) rfl (ix1 p)).trans ?_
  simp only [lift_row]
  rfl

/-- A vector over the rows, reshaped to a column, reads at (p, ·) the vector at p. -/
theorem column_entry (u : S5000.Idx → EReal) (p : Fin 5000) (z : Fin 1) :
    shapeCast S5000x1 u shapeCasts_S5000_S5000x1 (ix2 p z) = u (ix1 p) :=
  shapeCast_apply u _ _ _ (by
    have hz : z.val = 0 := by omega
    rw [Shape.rowMajor_val_one, Shape.rowMajor_val_two]
    show p.val = p.val * 1 + z.val
    omega)

/-- A column broadcast over the two classes reads at (p, q) the column at p. -/
theorem spread_entry (w : S5000x1.Idx → EReal) (p : Fin 5000) (q : Fin 2) :
    broadcastTo S5000x2 w broadcasts_S5000x1_S5000x2 (ix2 p q) = w (ix2 p (0 : Fin 1)) := by
  refine broadcastTo_apply w _ (ix2 p q) (ix2 p (0 : Fin 1)) fun ax => ?_
  match ax with
  | ⟨0, _⟩ =>
    show p.val = if (5000 : ℕ) = 1 then 0 else p.val
    rw [if_neg (by decide)]
  | ⟨1, _⟩ => rfl

/-! ## The log-softmax block -/

/-- The row maxima of a logits block, as a column. -/
abbrev rowMaxCol (L : FVec Ideal S5000x2 .f32) : FVec Ideal S5000x1 .f32 :=
  shapeCast S5000x1 (multiReduction .maximumf [1] S5000 L 0xFF800000#32 reduces_S5000x2_S5000 (.inl rfl) rfl) shapeCasts_S5000_S5000x1
/-- exp (L − row maximum). -/
abbrev shiftedExp (L : FVec Ideal S5000x2 .f32) : FVec Ideal S5000x2 .f32 :=
  exp (subf L (broadcastTo S5000x2 (rowMaxCol L) broadcasts_S5000x1_S5000x2))
/-- The row sums of the shifted exponentials, as a column. -/
abbrev rowSumCol (L : FVec Ideal S5000x2 .f32) : FVec Ideal S5000x1 .f32 :=
  shapeCast S5000x1 (multiReduction .add [1] S5000 (shiftedExp L) 0x00000000#32 reduces_S5000x2_S5000 (.inl rfl) rfl) shapeCasts_S5000_S5000x1
/-- L − (row maximum + log (row sum)). -/
abbrev lsmBlock (L : FVec Ideal S5000x2 .f32) : FVec Ideal S5000x2 .f32 :=
  subf L (broadcastTo S5000x2 (addf (rowMaxCol L) (log (rowSumCol L))) broadcasts_S5000x1_S5000x2)

theorem rowMaxCol_entry (L : FVec Ideal S5000x2 .f32) (p : Fin 5000) (z : Fin 1) :
    rowMaxCol L (ix2 p z) = max (L (ix2 p 0)) (L (ix2 p 1)) :=
  (column_entry _ p z).trans (rowMax_entry L p)

theorem shiftedExp_entry (L : FVec Ideal S5000x2 .f32) (p : Fin 5000) (k : Fin 2) :
    shiftedExp L (ix2 p k) = Ideal.exp (L (ix2 p k) - max (L (ix2 p 0)) (L (ix2 p 1))) := by
  show FloatOps.exp (FloatOps.subf (L (ix2 p k)) (broadcastTo S5000x2 (rowMaxCol L) broadcasts_S5000x1_S5000x2 (ix2 p k))) = _
  rw [spread_entry, rowMaxCol_entry, Ideal.exp_def, Ideal.subf_def]

theorem rowSumCol_entry (L : FVec Ideal S5000x2 .f32) (p : Fin 5000) (z : Fin 1) :
    rowSumCol L (ix2 p z) = ∑ k : Fin 2, Ideal.exp (L (ix2 p k) - max (L (ix2 p 0)) (L (ix2 p 1))) :=
  (column_entry _ p z).trans ((rowSum_entry (shiftedExp L) p).trans (Finset.sum_congr rfl fun k _ => shiftedExp_entry L p k))

/-- Entry (p, q) of the log-softmax block is the log-softmax of row p's two logits at q. -/
theorem lsmBlock_entry (L : FVec Ideal S5000x2 .f32) (p : Fin 5000) (q : Fin 2) :
    lsmBlock L (ix2 p q) = Cert.Spec.lsm (fun r => L (ix2 p r)) q := by
  show FloatOps.subf (L (ix2 p q)) (broadcastTo S5000x2 (addf (rowMaxCol L) (log (rowSumCol L))) broadcasts_S5000x1_S5000x2 (ix2 p q)) = _
  rw [spread_entry]
  show FloatOps.subf (L (ix2 p q)) (FloatOps.addf (rowMaxCol L (ix2 p (0 : Fin 1))) (FloatOps.log (rowSumCol L (ix2 p (0 : Fin 1))))) = _
  rw [rowMaxCol_entry, rowSumCol_entry, Ideal.subf_def, Ideal.addf_def, Ideal.log_def]
  rfl

/-! ## The payload -/

/-- The body's stored value is the log-softmax block of its logits block. -/
theorem payload_eq (x0 : Vec Ideal S5000x64 .f32) (x1 : Vec Ideal S2x64 .f32) (x2 : Vec Ideal S2 .f32) :
    k0_pay1 (F := Ideal) x0 x1 x2 = lsmBlock (logitsBlock x0 x1 x2) := rfl

/-- Entry (p, q) of the stored block: the log-softmax at q of the two logits Σ_k x[p, k] · w[r, k] + c[r]. -/
theorem payload_entry (x0 : Vec Ideal S5000x64 .f32) (x1 : Vec Ideal S2x64 .f32) (x2 : Vec Ideal S2 .f32) (p : Fin 5000) (q : Fin 2) :
    k0_pay1 (F := Ideal) x0 x1 x2 (ix2 p q)
      = Cert.Spec.lsm (fun r => (∑ k : Fin 64, x0 (ix2 p k) * x1 (ix2 r k)) + x2 (ix1 r)) q := by
  rw [payload_eq, lsmBlock_entry]
  exact congrArg (fun a => Cert.Spec.lsm a q) (funext fun r => logitsBlock_entry x0 x1 x2 p r)

end Cert.KernelIdeal.Row

end
-- ==== Proof.KernelValue.lean ====
/-
  The kernel's result array as one function of what the call is given.

  The call runs over 20 grid points; point t stages rows [5000 t, 5000 t + 5000) of the feature array, the whole
  weights and the whole bias, and writes back rows [5000 t, 5000 t + 5000) of the result. By the body's value at an
  entry, what point t writes back is block t of "classify" applied to the three arrays as the call finds them; the
  twenty blocks tile the 100000 rows, so after the run the result array IS that function of the three arrays.
-/
import proofs.«415030_j31404800868418_3_alg».proof.Proof.Gen.KernelIdeal.Value
import proofs.«415030_j31404800868418_3_alg».proof.Proof.KernelRow
import proofs.«415030_j31404800868418_3_alg».proof.Proof.Classify

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps over the grid: the features' and the result's blocks are numbered by the point, the
    weights' and the bias's block is always block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- At any point t and for ANY three arrays: the body's stored block, computed from the arrays' blocks at t, is block t of
    the classifier stage of the arrays. (Stated over arbitrary arrays: nothing here depends on what the call's operands hold.) -/
theorem block_eq (t : Fin cfg0.N) (A0 : S100000x64.Idx → EReal) (A1 : S2x64.Idx → EReal) (A2 : S2.Idx → EReal) :
    (cfg0.win 3).cut (grid0.coords t)
        (k0_pay1 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (Cert.Spec.classify A0 A1 A2) := by
  obtain ⟨e0, e1, e2, e3, e4, e5, e6⟩ := index_facts t
  have ht : t.val < 20 := lt_of_lt_of_eq t.isLt N_0
  funext j
  obtain ⟨p, q, rfl⟩ : ∃ (p : Fin 5000) (q : Fin 2), j = ix2 p q := ⟨j 0, j 1, eq_ix2 j⟩
  have hp : p.val < 5000 := p.isLt
  have hrow : t.val * 5000 + p.val < 100000 := by omega
  show k0_pay1 (F := Ideal) (((cfg0.win 0).blk t).view.read (Elt Ideal) A0) (((cfg0.win 1).blk t).view.read (Elt Ideal) A1)
      (((cfg0.win 2).blk t).view.read (Elt Ideal) A2) (ix2 p q)
    = Cert.Spec.classify A0 A1 A2 (((cfg0.win 3).blk t).view.emb (ix2 p q))
  refine (Cert.KernelIdeal.Row.payload_entry _ _ _ p q).trans ?_
  -- the three blocks, read where the result's entry says
  have hx : ∀ k : Fin 64, ((cfg0.win 0).blk t).view.read (Elt Ideal) A0 (ix2 p k)
      = A0 (ix2 (⟨t.val * 5000 + p.val, hrow⟩ : Fin 100000) k) := fun k => by
    show A0 (((cfg0.win 0).blk t).view.emb (ix2 p k)) = _
    refine congrArg A0 (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have hw : ∀ (r : Fin 2) (k : Fin 64), ((cfg0.win 1).blk t).view.read (Elt Ideal) A1 (ix2 r k) = A1 (ix2 r k) := fun r k => by
    show A1 (((cfg0.win 1).blk t).view.emb (ix2 r k)) = _
    refine congrArg A1 (funext fun a => Fin.ext ?_)
    match a with
    | ⟨0, _⟩ => show win0_1.index t (0 : Fin 2) * 2 + 1 * r.val = r.val; omega
    | ⟨1, _⟩ => show win0_1.index t (1 : Fin 2) * 64 + 1 * k.val = k.val; omega
  have hb : ∀ r : Fin 2, ((cfg0.win 2).blk t).view.read (Elt Ideal) A2 (ix1 r) = A2 (ix1 r) := fun r => by
    show A2 (((cfg0.win 2).blk t).view.emb (ix1 r)) = _
    refine congrArg A2 (funext fun a => Fin.ext ?_)
    match a with
    | ⟨0, _⟩ => show win0_2.index t (0 : Fin 1) * 2 + 1 * r.val = r.val; omega
  have hout : ((cfg0.win 3).blk t).view.emb (ix2 p q) = ix2 (⟨t.val * 5000 + p.val, hrow⟩ : Fin 100000) q :=
    funext fun a => Fin.ext (by
      match a with
      | ⟨0, _⟩ => show win0_3.index t (0 : Fin 2) * 5000 + 1 * p.val = t.val * 5000 + p.val; omega
      | ⟨1, _⟩ => show win0_3.index t (1 : Fin 2) * 2 + 1 * q.val = q.val; omega)
  rw [hout]
  simp only [hx, hw, hb]
  rfl

/-- Each input window's block at a point is the block read of its array as the call finds it. -/
theorem iblk_feat (c : Dev nD) (t : Fin cfg0.N) :
    iblk m c 0 t = ((cfg0.win 0).blk t).view.read (Elt Ideal) (V m c main_v57) := rfl
theorem iblk_weights (c : Dev nD) (t : Fin cfg0.N) :
    iblk m c 1 t = ((cfg0.win 1).blk t).view.read (Elt Ideal) (V m c main_arg2) := rfl
theorem iblk_bias (c : Dev nD) (t : Fin cfg0.N) :
    iblk m c 2 t = ((cfg0.win 2).blk t).view.read (Elt Ideal) (V m c main_arg3) := rfl

/-- What point t writes back is block t of the classifier stage of the three arrays as the call finds them. -/
theorem flushed_eq (c : Dev nD) (t : Fin cfg0.N) :
    (dats m 0 c).flushed 3 t = ((cfg0.win 3).blk t).view.read (Elt Ideal)
      (Cert.Spec.classify (V m c main_v57) (V m c main_arg2) (V m c main_arg3)) := by
  rw [Cert.KernelIdeal.Value.flushed3]
  unfold out0_3
  rw [View.canon_unit_zero origin2]
  simp only [View.ld_unit_zero (S := S5000x64) origin2, View.ld_unit_zero (S := S2x64) origin2, View.ld_unit_zero (S := S2) origin1]
  rw [iblk_feat m c t, iblk_weights m c t, iblk_bias m c t]
  exact block_eq t (V m c main_v57) (V m c main_arg2) (V m c main_arg3)

/-- An index of the result array is in point t's block iff each coordinate is in the block's range on its axis. -/
theorem mem_blk (t : Fin cfg0.N) (i : S100000x2.Idx) :
    i ∈ ((cfg0.win 3).blk t).view.set ↔ ∀ a : Fin 2, win0_3.index t a * S5000x2.size a ≤ (i a).val ∧ (i a).val < win0_3.index t a * S5000x2.size a + S5000x2.size a := by
  show i ∈ ((View.whole main_v58).slice (win0_3.rect t)).set ↔ _
  rw [View.set_slice_whole, Rect.mem_set_unit]
  exact Iff.rfl

/-- Every row belongs to the block of the point numbered by the row divided by 5000. -/
theorem cover (i : S100000x2.Idx) : ∃ t : Fin cfg0.N, (cfg0.win 3).flush t = true ∧ i ∈ ((cfg0.win 3).blk t).view.set := by
  have hi0 : (i 0).val < 100000 := (i 0).isLt
  have hi1 : (i 1).val < 2 := (i 1).isLt
  have hlt : (i 0).val / 5000 < cfg0.N := by rw [show cfg0.N = 20 from N_0]; omega
  refine ⟨⟨(i 0).val / 5000, hlt⟩, flush0_3 _, ?_⟩
  obtain ⟨-, -, -, -, -, e5, e6⟩ := index_facts ⟨(i 0).val / 5000, hlt⟩
  have e5' : win0_3.index ⟨(i 0).val / 5000, hlt⟩ (0 : Fin 2) = (i 0).val / 5000 := e5
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 2 ≤ (i 1).val ∧ (i 1).val < win0_3.index ⟨(i 0).val / 5000, hlt⟩ (1 : Fin 2) * 2 + 2
    omega

/-- After the run the result array is the classifier stage of the three arrays as the call finds them. -/
theorem final (c : Dev nD) :
    (dats m 0 c).arrAt 3 cfg0.N = Cert.Spec.classify (V m c main_v57) (V m c main_arg2) (V m c main_arg3) :=
  (dats m 0 c).arrAt_eq_of_cover 3 (Cert.Spec.classify (V m c main_v57) (V m c main_arg2) (V m c main_arg3))
    (fun t _ => flushed_eq m c t) cover

end Cert.KernelIdeal.Whole

end
-- ==== Proof.RefFeatures.lean ====
/-
  The reference's propagated features, as the two hops at the index vectors as given.

  The reference computes them in fifty-odd named stages (slices, the pair list, the degree scatter, the reciprocal
  square root under its positivity test, the wrapped gathers, the weights, and two gather–scale–scatter hops). Opening
  every stage gives one expression, and it is, operation for operation, the propagation at the rows and columns of
  the edge table followed by the self-loops. For any float instance.
-/
import proofs.«415030_j31404800868418_3_alg».proof.Proof.RefRead
import proofs.«415030_j31404800868418_3_alg».proof.Proof.Propagate
import proofs.«415030_j31404800868418_3_alg».proof.Proof.Endpoints

set_option maxRecDepth 16384

noncomputable section

namespace Cert.ReferenceIdeal.Whole

open Cert.ReferenceIdeal Cert.ReferenceIdeal.Gen Cert.ReferenceIdeal.ReadP Idealize.ShloMosaic

set_option maxHeartbeats 4000000 in
/-- The reference's propagated features are the two hops at the index vectors as given, for any float instance. -/
theorem features_eq {F : FTy → Type} [FloatOps F] (x0 : (⟨S100000x64, .f32⟩ : BufTy).Contents (Elt F))
    (x1 : (⟨S2x1600000, .i32⟩ : BufTy).Contents (Elt F)) :
    val_main_v55 (F := F) x0 x1 = Cert.Spec.propagate (F := F) (Cert.Spec.rowsOf x1) (Cert.Spec.colsOf x1) x0 := by
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, val_main_v30, val_main_c_6, val_main_v31, val_main_v32, val_main_c_7, val_main_v33, val_main_v34, val_main_v35, val_main_v36, val_main_v37, val_main_v38, val_main_v39, val_main_cst_8, val_main_v40, val_main_v41, val_main_v42, val_main_v43, val_main_c_9, val_main_v44, val_main_v45, val_main_c_10, val_main_v46, val_main_v47, val_main_v48, val_main_v49, val_main_v50, val_main_v51, val_main_v52, val_main_cst_11, val_main_v53, val_main_v54, val_main_v55]
  rfl

end Cert.ReferenceIdeal.Whole

end
-- ==== Proof.RefValue.lean ====
/-
  The reference's result as the classifier stage of its propagated features.

  The reference propagates the features over the pair list with the index vectors as given (no clamp), multiplies
  by the transposed weights, adds the bias, and applies log-softmax in the shifted form
  (a q − m) − log Σ_r exp (a r − m), with m the row maximum taken from −∞ and then once more against −∞.
  Stage by stage: the logits are Σ_k P[i, k] · W[r, k] + b[r]; m is the maximum of the row's two logits; the sum
  starts from 0. When the propagated features, the weights and the bias are real, m is real and the shifted form is
  the kernel's form a q − (m + log Σ_r exp (a r − m)).

  The facts about one reduction or one broadcast are stated over an ARBITRARY array and then applied to the
  reference's stages: none of them depends on what the array holds, and nothing here ever looks inside one.
-/
import proofs.«415030_j31404800868418_3_alg».proof.Proof.RefRead
import Idealize.ShloMosaic.PureOps.Reduce
import proofs.«415030_j31404800868418_3_alg».proof.Proof.Classify

set_option maxRecDepth 16384

noncomputable section

namespace Cert.ReferenceIdeal.Whole

open Cert.ReferenceIdeal Cert.ReferenceIdeal.Gen Cert.ReferenceIdeal.ReadP Idealize.ShloMosaic Idealize.ShloMosaic.ValueIdx

/-! ## Facts over an arbitrary array -/

/-- The index a row reduction inserts at lane 0 (lane 1) of row i is (i, 0) (is (i, 1)). -/
theorem lift_lane0 (h : S100000x2.Reduces [1] S100000) (i : Fin 100000) (hk : 0 < S100000x2.size 1) :
    h.lift (ix1 i) ⟨0, hk⟩ = ix2 i (0 : Fin 2) :=
  funext fun a => Fin.ext (by match a with | ⟨0, _⟩ => rfl | ⟨1, _⟩ => rfl)
theorem lift_lane1 (h : S100000x2.Reduces [1] S100000) (i : Fin 100000) (hk : 1 < S100000x2.size 1) :
    h.lift (ix1 i) ⟨1, hk⟩ = ix2 i (1 : Fin 2) :=
  funext fun a => Fin.ext (by match a with | ⟨0, _⟩ => rfl | ⟨1, _⟩ => rfl)

/-- A maximum-reduction over the two classes, started from −∞, is at row i the maximum of the row's two entries. -/
theorem reduce_max_row (L : (⟨S100000x2, .f32⟩ : BufTy).Contents (Elt Ideal)) (i : Fin 100000) :
    Host.reduce (FloatOps.maximumf (F := Ideal) (φ := .f32)) L (val_main_call1_cst (F := Ideal)) reducesTo_S100000x2_S100000_d1 h_S_ (ix1 i)
      = max (L (ix2 i 0)) (L (ix2 i 1)) := by
  have hbot : Ideal.ofBits .f32 0xFF800000#32 = (⊥ : EReal) := by simp [Ideal.ofBits, Ideal.ieee]
  refine (Host.reduce_eq_fold_single (FloatOps.maximumf (F := Ideal) (φ := .f32)) L
    (val_main_call1_cst (F := Ideal)) reducesTo_S100000x2_S100000_d1 (by decide) h_S_ (ix1 i)).trans ?_
  refine (Cert.Spec.fold_max_two' (n := S100000x2.size 1) rfl _ _).trans ?_
  rw [val_main_call1_cst_apply, Ideal.ofBits_def, hbot, max_bot_right]
  exact congrArg₂ max (congrArg L (lift_lane0 _ i _)) (congrArg L (lift_lane1 _ i _))

/-- The maximum of −∞ (as the float pattern) and anything is that thing. -/
theorem max_negInf (v : EReal) : FloatOps.maximumf (F := Ideal) (φ := .f32) (FloatOps.ofBits .f32 0xFF800000#32) v = v := by
  have hbot : Ideal.ofBits .f32 0xFF800000#32 = (⊥ : EReal) := by simp [Ideal.ofBits, Ideal.ieee]
  rw [Ideal.maximumf_def, Ideal.ofBits_def, hbot, max_bot_left]

/-- A sum started from the zero pattern is the sum. -/
theorem zero_start (v : EReal) : FloatOps.ofBits (F := Ideal) .f32 0x00000000#32 + v = v := by
  rw [Ideal.ofBits_def, Ideal.ofBits_zero_f32, zero_add]

variable (x0 : (⟨S100000x64, .f32⟩ : BufTy).Contents (Elt Ideal)) (x1 : (⟨S2x1600000, .i32⟩ : BufTy).Contents (Elt Ideal))
  (x2 : (⟨S2x64, .f32⟩ : BufTy).Contents (Elt Ideal)) (x3 : (⟨S2, .f32⟩ : BufTy).Contents (Elt Ideal))

/-! ## The reference's stages at an entry -/

/-- The reference's logits at (i, r): Σ_k P[i, k] · W[r, k] + b[r], P its propagated features. -/
theorem logits_entry (i : Fin 100000) (r : Fin 2) :
    val_main_v60 (F := Ideal) x0 x1 x2 x3 (ix2 i r) = Cert.Spec.logit (val_main_v55 (F := Ideal) x0 x1) x2 x3 i r := by
  have e1 : ∀ k : Fin 64, lidx_main_v57 (ix2 i r) k = ix2 i k := fun k =>
    funext fun a => Fin.ext (by match a with | ⟨0, _⟩ => rfl | ⟨1, _⟩ => rfl)
  have e2 : ∀ k : Fin 64, idx_main_v56 (ridx_main_v57 (ix2 i r) k) = ix2 r k := fun k =>
    funext fun a => Fin.ext (by match a with | ⟨0, _⟩ => rfl | ⟨1, _⟩ => rfl)
  have e3 : idx_main_v58 (idx_main_v59 (ix2 i r)) = ix1 r :=
    funext fun a => Fin.ext (by match a with | ⟨0, _⟩ => rfl)
  rw [val_main_v60_apply, val_main_v57_apply, val_main_v59_apply, val_main_v58_apply]
  simp only [val_main_v56_apply, e1, e2, e3]
  rfl

/-- The reference's row maximum is the maximum of the row's two logits. -/
theorem rowMax_entry (i : Fin 100000) :
    val_main_call1_v2 (F := Ideal) x0 x1 x2 x3 (ix1 i)
      = max (val_main_v60 (F := Ideal) x0 x1 x2 x3 (ix2 i 0)) (val_main_v60 (F := Ideal) x0 x1 x2 x3 (ix2 i 1)) := by
  rw [val_main_call1_v2_apply, val_main_call1_v1_apply, val_main_call1_cst_0_apply, max_negInf]
  unfold val_main_call1_v0
  exact reduce_max_row (val_main_v60 (F := Ideal) x0 x1 x2 x3) i

/-- The reference's shifted logits at (i, r): the logit less the row maximum. -/
theorem shifted_entry (i : Fin 100000) (r : Fin 2) :
    val_main_call1_v5 (F := Ideal) x0 x1 x2 x3 (ix2 i r)
      = val_main_v60 (F := Ideal) x0 x1 x2 x3 (ix2 i r)
        - max (val_main_v60 (F := Ideal) x0 x1 x2 x3 (ix2 i 0)) (val_main_v60 (F := Ideal) x0 x1 x2 x3 (ix2 i 1)) := by
  have e : idx_main_call1_v3 (idx_main_call1_v4 (ix2 i r)) = ix1 i :=
    funext fun a => Fin.ext (by match a with | ⟨0, _⟩ => rfl)
  rw [val_main_call1_v5_apply, val_main_call1_v4_apply, val_main_call1_v3_apply, e, rowMax_entry, Ideal.subf_def]

/-- The same in terms of the logit function of the propagated features. -/
theorem shifted_logit (i : Fin 100000) (r : Fin 2) :
    val_main_call1_v5 (F := Ideal) x0 x1 x2 x3 (ix2 i r)
      = Cert.Spec.logit (val_main_v55 (F := Ideal) x0 x1) x2 x3 i r
        - max (Cert.Spec.logit (val_main_v55 (F := Ideal) x0 x1) x2 x3 i 0) (Cert.Spec.logit (val_main_v55 (F := Ideal) x0 x1) x2 x3 i 1) := by
  rw [shifted_entry, logits_entry, logits_entry, logits_entry]

/-- The reference's exponentials at (i, r): exp of the shifted logit. -/
theorem exp_entry (i : Fin 100000) (r : Fin 2) :
    val_main_call1_v6 (F := Ideal) x0 x1 x2 x3 (ix2 i r) = Ideal.exp (val_main_call1_v5 (F := Ideal) x0 x1 x2 x3 (ix2 i r)) :=
  (val_main_call1_v6_apply x0 x1 x2 x3 (ix2 i r)).trans (Ideal.hostUnary_exp_def _)

/-- The reference's log of the row sum at (i, q): log Σ_r exp (shifted logit r), the sum started from 0. -/
theorem logSum_entry (i : Fin 100000) (q : Fin 2) :
    val_main_call1_v10 (F := Ideal) x0 x1 x2 x3 (ix2 i q)
      = Ideal.log (∑ r : Fin 2, Ideal.exp (val_main_call1_v5 (F := Ideal) x0 x1 x2 x3 (ix2 i r))) := by
  have e : idx_main_call1_v8 (idx_main_call1_v10 (ix2 i q)) = ix1 i :=
    funext fun a => Fin.ext (by match a with | ⟨0, _⟩ => rfl)
  have e7 : ∀ r : Fin 2, idx_main_call1_v7 (ix1 i) r = ix2 i r := fun r =>
    funext fun a => Fin.ext (by match a with | ⟨0, _⟩ => rfl | ⟨1, _⟩ => rfl)
  rw [val_main_call1_v10_apply, val_main_call1_v9_apply, val_main_call1_v8_apply, e, val_main_call1_v7_apply,
    val_main_call1_cst_1_apply]
  exact (Ideal.hostUnary_log_def _).trans (congrArg Ideal.log ((zero_start _).trans
    (Finset.sum_congr rfl fun r _ => (congrArg (val_main_call1_v6 (F := Ideal) x0 x1 x2 x3) (e7 r)).trans (exp_entry x0 x1 x2 x3 i r))))

/-- Entry (i, q) of the reference's result, when its propagated features, the weights and the bias are real. -/
theorem result_entry (hP : Cert.Spec.IsReal (val_main_v55 (F := Ideal) x0 x1)) (hW : Cert.Spec.IsReal x2)
    (hb : Cert.Spec.IsReal x3) (i : Fin 100000) (q : Fin 2) :
    val_main_v61 (F := Ideal) x0 x1 x2 x3 (ix2 i q)
      = Cert.Spec.classify (val_main_v55 (F := Ideal) x0 x1) x2 x3 (ix2 i q) :=
  (val_main_v61_apply x0 x1 x2 x3 (ix2 i q)).trans ((Ideal.subf_def _ _).trans
    (Cert.Spec.lsm_assemble (Cert.Spec.logit (val_main_v55 (F := Ideal) x0 x1) x2 x3 i) q
      (fun r => val_main_call1_v5 (F := Ideal) x0 x1 x2 x3 (ix2 i r)) (fun r => shifted_logit x0 x1 x2 x3 i r)
      (val_main_call1_v10 (F := Ideal) x0 x1 x2 x3 (ix2 i q)) (logSum_entry x0 x1 x2 x3 i q)
      (fun r => Cert.Spec.logit_real hP hW hb i r)))

/-- The reference's result array is the classifier stage of its propagated features. -/
theorem result_eq (hP : Cert.Spec.IsReal (val_main_v55 (F := Ideal) x0 x1)) (hW : Cert.Spec.IsReal x2)
    (hb : Cert.Spec.IsReal x3) :
    val_main_v61 (F := Ideal) x0 x1 x2 x3 = Cert.Spec.classify (val_main_v55 (F := Ideal) x0 x1) x2 x3 :=
  funext fun j => by
    obtain ⟨i, q, rfl⟩ : ∃ (i : Fin 100000) (q : Fin 2), j = ix2 i q := ⟨j 0, j 1, eq_ix2 j⟩
    exact result_entry x0 x1 x2 x3 hP hW hb i q

end Cert.ReferenceIdeal.Whole

end
-- ==== Proof.lean ====
/-
  Two hops of degree-normalised graph propagation, then a linear layer into two classes and a log-softmax:
  the kernel's program against its reference, over the extended reals.

  Both programs build the same pair list (the given edges and one self-loop per node), compute the in-degree with
  self-loops, its reciprocal square root where positive, the pair weights, and two gather–scale–scatter hops over the
  features. They differ in three places.
  (1) The kernel clamps both index vectors into the node range before use; the reference uses them as given. Under the
      precondition every edge endpoint is a node number, so the clamp is the identity and the two propagated feature
      arrays are the same term.
  (2) The kernel's classifier runs inside a tiled call, 5000 rows per grid point, on operands rounded to a shorter float
      format; on the extended reals a change of format is the identity, the product into a zero accumulator is the plain
      sum of products, and the twenty blocks tile the rows, so the call's result is the same whole-array function of the
      propagated features, the weights and the bias as the reference's matrix product plus bias.
  (3) The kernel writes the log-softmax as a − (m + log S), the reference as (a − m) − log S, with m the row maximum and
      S the row's sum of exp (a − m). On the extended reals these agree exactly when m is real. The precondition makes the
      features, weights and bias real; propagation keeps features real (the degree is a sum of ones, its reciprocal
      square root is taken only where it is positive, and every hop is a finite sum of products of reals); so every
      logit is real and so is m.
  The frames of the two kernel programs are the generated ones; the reference's frame is its run with the result dropped.
  The idealization rewrote no operation, so there is nothing to preserve.
-/
import proofs.«415030_j31404800868418_3_alg».proof.Defs
import proofs.«415030_j31404800868418_3_alg».proof.Proof.Gen.Kernel
import proofs.«415030_j31404800868418_3_alg».proof.Proof.Gen.Kernel.Skeleton
import proofs.«415030_j31404800868418_3_alg».proof.Proof.Gen.Kernel.Launch
import proofs.«415030_j31404800868418_3_alg».proof.Proof.Gen.Kernel.Points
import proofs.«415030_j31404800868418_3_alg».proof.Proof.Gen.Kernel.Frame
import proofs.«415030_j31404800868418_3_alg».proof.Proof.Gen.KernelIdeal
import proofs.«415030_j31404800868418_3_alg».proof.Proof.Gen.KernelIdeal.Skeleton
import proofs.«415030_j31404800868418_3_alg».proof.Proof.Gen.KernelIdeal.Launch
import proofs.«415030_j31404800868418_3_alg».proof.Proof.Gen.KernelIdeal.Points
import proofs.«415030_j31404800868418_3_alg».proof.Proof.Gen.KernelIdeal.Frame
import proofs.«415030_j31404800868418_3_alg».proof.Proof.Gen.ReferenceIdeal
import proofs.«415030_j31404800868418_3_alg».proof.Proof.Gen.Pre_finite_inputs
import proofs.«415030_j31404800868418_3_alg».proof.Proof.Gen.KernelIdeal.Value
import proofs.«415030_j31404800868418_3_alg».proof.Proof.RefRun
import proofs.«415030_j31404800868418_3_alg».proof.Proof.RefRead
import proofs.«415030_j31404800868418_3_alg».proof.Proof.PropagateReal
import proofs.«415030_j31404800868418_3_alg».proof.Proof.Domain
import proofs.«415030_j31404800868418_3_alg».proof.Proof.KernelHost
import proofs.«415030_j31404800868418_3_alg».proof.Proof.KernelValue
import proofs.«415030_j31404800868418_3_alg».proof.Proof.RefFeatures
import proofs.«415030_j31404800868418_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The common result: the classifier stage of the features propagated at the index vectors as given. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v58) :=
  Cert.Spec.classify
    (Cert.Spec.propagate (F := Ideal)
      (Cert.Spec.rowsOf (m ((c.tc : Thread Cert.KernelIdeal.nD Cert.KernelIdeal.τ).loc Cert.KernelIdeal.main_arg1)))
      (Cert.Spec.colsOf (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel's result array, under the precondition: the clamp is the identity on in-range endpoints. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats m 0 c).arrAt 3 Cert.KernelIdeal.cfg0.N = result m c := by
  obtain ⟨_, _, _, he⟩ := Cert.Domain.decode _ _ _ _ (hpre c)
  -- the call's first operand: the clamp does nothing on in-range endpoints
  have hfeat := (Cert.KernelIdeal.HostSide.operand_eq m c).trans (by
    rw [Cert.Spec.clipIdx_eq _ (Cert.Spec.rowsOf_inRange _ he), Cert.Spec.clipIdx_eq _ (Cert.Spec.colsOf_inRange _ he)])
  -- the three arrays the call finds, each replaced by what it holds (by congruence: no array is ever opened)
  exact (Cert.KernelIdeal.Whole.final m c).trans
    (congr (congr (congrArg Cert.Spec.classify hfeat) (Cert.KernelIdeal.Gen.V_main_arg2 m c)) (Cert.KernelIdeal.Gen.V_main_arg3 m c))

/-- The reference's result term at the kernel's inputs, under the precondition: its shifted log-softmax is the kernel's form
    because the propagated features, the weights and the bias are real. -/
theorem reference_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.ReadP.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = result m c := by
  obtain ⟨hx, hW, hb, _⟩ := Cert.Domain.decode _ _ _ _ (hpre c)
  have hP : Cert.Spec.IsReal (Cert.ReferenceIdeal.ReadP.val_main_v55 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) := by
    rw [Cert.ReferenceIdeal.Whole.features_eq]
    exact Cert.Spec.isReal_propagate _ _ hx
  rw [Cert.ReferenceIdeal.Whole.result_eq _ _ _ _ hP hW hb, Cert.ReferenceIdeal.Whole.features_eq]
  rfl

theorem algebraic : Cert.algebraic_KernelIdeal_ReferenceIdeal := by
  intro m ρ m' ρ' hpre hagree
  refine ⟨result m, ?_, ?_⟩
  · exact (θ_run Cert.KernelIdeal.defs _ _).mono (fun r h c => ⟨(h c).1.trans (kernel_result m hpre c), (h c).2⟩)
      (Cert.KernelIdeal.Value.run_blocks m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v61_eq, (hagree c).1, (hagree c).2.1, (hagree c).2.2.1, (hagree c).2.2.2]
    exact reference_result m hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
